-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x80x8x8 : Shape := ⟨4, ![8192, 80, 8, 8]⟩
abbrev S5120x1858 : Shape := ⟨2, ![5120, 1858]⟩
abbrev S_ : Shape := ⟨0, ![]⟩

class Facts : Prop where
  bcast_S_S8192x80x8x8 : S_.BroadcastsInDim S8192x80x8x8 (![] : Fin 0 → Fin S8192x80x8x8.rank)
  reducesTo_S8192x80x8x8_S_d0_1_2_3 : S8192x80x8x8.ReducesTo [0, 1, 2, 3] S_
  h_S_ : 0 < S_.numel
  bcast_S_S5120x1858 : S_.BroadcastsInDim S5120x1858 (![] : Fin 0 → Fin S5120x1858.rank)
  reducesTo_S5120x1858_S_d0_1 : S5120x1858.ReducesTo [0, 1] S_

variable [Facts]

def fn {F : FTy → Type} [FloatOps F] (main_arg0 : FVec F S8192x80x8x8 .f32) (main_arg1 : FVec F S5120x1858 .f32) : IVec S_ 1 :=
  let main_v0 : FVec F S8192x80x8x8 .f32 := Host.absf main_arg0
  let main_cst : FVec F S_ .f32 := constant S_ .f32 0x7F800000#32
  let main_v1 : FVec F S8192x80x8x8 .f32 := broadcastInDim S8192x80x8x8 ![] bcast_S_S8192x80x8x8 main_cst
  let main_v2 : IVec S8192x80x8x8 1 := cmpf .olt main_v0 main_v1
  let main_c : IVec S_ 1 := constantI S_ 1 1#1
  let main_v3 : IVec S_ 1 := (fun x v => Host.reduce IntOp.andi x v reducesTo_S8192x80x8x8_S_d0_1_2_3 h_S_) main_v2 main_c
  let main_v4 : FVec F S5120x1858 .f32 := Host.absf main_arg1
  let main_cst_0 : FVec F S_ .f32 := constant S_ .f32 0x7F800000#32
  let main_v5 : FVec F S5120x1858 .f32 := broadcastInDim S5120x1858 ![] bcast_S_S5120x1858 main_cst_0
  let main_v6 : IVec S5120x1858 1 := cmpf .olt main_v4 main_v5
  let main_c_1 : IVec S_ 1 := constantI S_ 1 1#1
  let main_v7 : IVec S_ 1 := (fun x v => Host.reduce IntOp.andi x v reducesTo_S5120x1858_S_d0_1 h_S_) main_v6 main_c_1
  let main_v8 : IVec S_ 1 := andi main_v3 main_v7
  main_v8
-- ==== Kernel.lean ====
abbrev S8192x80x8x8 : Shape := ⟨4, ![8192, 80, 8, 8]⟩
abbrev S5120x1858 : Shape := ⟨2, ![5120, 1858]⟩
abbrev S8192x5120 : Shape := ⟨2, ![8192, 5120]⟩
abbrev S8192x1858 : Shape := ⟨2, ![8192, 1858]⟩
abbrev S256x5120 : Shape := ⟨2, ![256, 5120]⟩
abbrev S256x1858 : Shape := ⟨2, ![256, 1858]⟩

abbrev nBuf : Space → Nat
  | .hbm => 5
  | .vmem => 5
  | .smem => 0
  | _ => 0

abbrev bufTy : (tb : Table) → Fin (tcTables nBuf tb) → BufTy
  | .hbm, ⟨0, _⟩ => ⟨S8192x80x8x8, .f32⟩
  | .hbm, ⟨1, _⟩ => ⟨S5120x1858, .f32⟩
  | .hbm, ⟨2, _⟩ => ⟨S8192x5120, .f32⟩
  | .hbm, ⟨3, _⟩ => ⟨S5120x1858, .bf16⟩
  | .hbm, ⟨4, _⟩ => ⟨S8192x1858, .f32⟩
  | .local _ .vmem, ⟨0, _⟩ => ⟨S256x5120, .f32⟩
  | .local _ .vmem, ⟨1, _⟩ => ⟨S256x5120, .f32⟩
  | .local _ .vmem, ⟨2, _⟩ => ⟨S5120x1858, .bf16⟩
  | .local _ .vmem, ⟨3, _⟩ => ⟨S256x1858, .f32⟩
  | .local _ .vmem, ⟨4, _⟩ => ⟨S256x1858, .f32⟩
  | _, _ => ⟨S8192x80x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x1858 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1858 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8192x80x8x8_S8192x5120 : S8192x80x8x8.ShapeCasts S8192x5120
  bitsLt_bf16_f32 : FTy.bits .bf16 < FTy.bits .f32
  inb_S256x5120_S256x5120_0_0 : ∀ a, (![0, 0] : Fin 2 → Nat) a + S256x5120.size a ≤ S256x5120.size a
  h_S256x5120 : 0 < S256x5120.numel
  shapeCasts_S256x5120_S256x5120 : S256x5120.ShapeCasts S256x5120
  inb_S5120x1858_S5120x1858_0_0 : ∀ a, (![0, 0] : Fin 2 → Nat) a + S5120x1858.size a ≤ S5120x1858.size a
  h_S5120x1858 : 0 < S5120x1858.numel
  shapeCasts_S5120x1858_S5120x1858 : S5120x1858.ShapeCasts S5120x1858
  inb_S256x1858_S256x1858_0_0 : ∀ a, (![0, 0] : Fin 2 → Nat) a + S256x1858.size a ≤ S256x1858.size a
  h_S256x1858 : 0 < S256x1858.numel
  dot_S256x5120_S5120x1858_S256x1858_1_0_0_1_n_n_wf : DotDims.WF S256x5120 S5120x1858 S256x1858 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x5120.size a ≤ S8192x5120.size a
  hwx0_0 : ∀ i : grid0.Coords, EltTy.bits .f32 = 32 ∨ (Rect.block (s := S8192x5120) S256x5120.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5120x1858.size a ≤ S5120x1858.size a
  hwx0_1 : ∀ i : grid0.Coords, EltTy.bits .bf16 = 32 ∨ (Rect.block (s := S5120x1858) S5120x1858.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1858.size a ≤ S8192x1858.size a
  hwx0_2 : ∀ i : grid0.Coords, EltTy.bits .f32 = 32 ∨ (Rect.block (s := S8192x1858) S256x1858.size (cc0_transform_2 i) (hinb0_2 i)).WholeWords (EltTy.packing .f32)

variable [Facts₀]

def dot_S256x5120_S5120x1858_S256x1858_1_0_0_1_n_n : DotDims S256x5120 S5120x1858 S256x1858 where
  lhsContracting := [1]
  rhsContracting := [0]
  lhsNonContracting := [0]
  rhsNonContracting := [1]
  lhsBatch := []
  rhsBatch := []
  wf := dot_S256x5120_S5120x1858_S256x1858_1_0_0_1_n_n_wf

abbrev win0_0 : Pipeline.Window sig grid0 :=
  Pipeline.Window.ofSpec (Memref.whole main_v0) S256x5120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5120x1858.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1858.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x80x8x8 : Shape := ⟨4, ![8192, 80, 8, 8]⟩
abbrev S5120x1858 : Shape := ⟨2, ![5120, 1858]⟩
abbrev S8192x5120 : Shape := ⟨2, ![8192, 5120]⟩
abbrev S8192x1858 : Shape := ⟨2, ![8192, 1858]⟩

abbrev nBuf : Space → Nat
  | .hbm => 4
  | .vmem => 0
  | .smem => 0
  | _ => 0

abbrev bufTy : (tb : Table) → Fin (tcTables nBuf tb) → BufTy
  | .hbm, ⟨0, _⟩ => ⟨S8192x80x8x8, .f32⟩
  | .hbm, ⟨1, _⟩ => ⟨S5120x1858, .f32⟩
  | .hbm, ⟨2, _⟩ => ⟨S8192x5120, .f32⟩
  | .hbm, ⟨3, _⟩ => ⟨S8192x1858, .f32⟩
  | _, _ => ⟨S8192x80x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S8192x80x8x8_S8192x5120 : S8192x80x8x8.ShapeCasts S8192x5120
  dot_S8192x5120_S5120x1858_S8192x1858_1_0_0_1_n_n_wf : DotDims.WF S8192x5120 S5120x1858 S8192x1858 [1] [0] [0] [1] [] []

variable [Facts₀]

def dot_S8192x5120_S5120x1858_S8192x1858_1_0_0_1_n_n : DotDims S8192x5120 S5120x1858 S8192x1858 where
  lhsContracting := [1]
  rhsContracting := [0]
  lhsNonContracting := [0]
  rhsNonContracting := [1]
  lhsBatch := []
  rhsBatch := []
  wf := dot_S8192x5120_S5120x1858_S8192x1858_1_0_0_1_n_n_wf

class Facts : Prop extends Facts₀ where

variable [Facts]
-- ==== Proof.RowsTimesColumns.lean ====
/-
  The one function both programs compute. Flattening a board tensor [8192, 80, 8, 8] to rows [8192, 5120] and
  multiplying by a [5120, 1858] map gives, at row `b` and column `n`, the sum over the 5120 flattened positions `k`
  of `x (b, k) · w (k, n)`. On the extended reals this sum is one expression whatever the tiling or the order in
  which a device accumulates it, so it is stated once, over the literal shapes, and both sides are read as it.
-/
import Idealize.ShloMosaic.PureOps.Ideal
import Idealize.ShloMosaic.Lib.ValueIdx

noncomputable section

namespace Cert.RowsTimesColumns

open Idealize.ShloMosaic Idealize.ShloMosaic.ValueIdx

/-- Entry `(b, n)` of the product of the rows `x` with the columns of `w`: `∑ k, x (b, k) · w (k, n)`. -/
def product (x : (⟨2, ![8192, 5120]⟩ : Shape).Idx → EReal) (w : (⟨2, ![5120, 1858]⟩ : Shape).Idx → EReal) :
    (⟨2, ![8192, 1858]⟩ : Shape).Idx → EReal :=
  fun i => ∑ k : Fin 5120, x (ix2 (i 0) k) * w (ix2 k (i 1))

theorem product_apply (x : (⟨2, ![8192, 5120]⟩ : Shape).Idx → EReal) (w : (⟨2, ![5120, 1858]⟩ : Shape).Idx → EReal)
    (i : (⟨2, ![8192, 1858]⟩ : Shape).Idx) :
    product x w i = ∑ k : Fin 5120, x (ix2 (i 0) k) * w (ix2 k (i 1)) := rfl

end Cert.RowsTimesColumns

end
-- ==== Proof.ReferenceProduct.lean ====
/-
  The reference reads as the product. Its one `dot_general` contracts axis 1 of the flattened rows with axis 0 of
  the map; at the exact values that is the sum over the contracted coordinate `k` of the left operand at `(b, k)`
  times the right at `(k, n)` — the two operand indices named coordinate by coordinate are the specification's.
-/
import proofs.«425757_j1297080123727_3_alg».proof.Proof.Gen.ReferenceIdeal.Read
import proofs.«425757_j1297080123727_3_alg».proof.Proof.RowsTimesColumns

noncomputable section

namespace Cert.ReferenceIdeal.AsProduct

open Cert.ReferenceIdeal Cert.ReferenceIdeal.Read Idealize.ShloMosaic Idealize.ShloMosaic.ValueIdx

/-- The left operand is read at row `i 0`, position `k`. -/
theorem left_index (i : S8192x1858.Idx) (k : Fin 5120) : lidx_main_v1 i k = ix2 (i 0) k :=
  funext fun a => Fin.ext (by match a with | ⟨0, _⟩ => rfl | ⟨1, _⟩ => rfl)

/-- The right operand is read at position `k`, column `i 1`. -/
theorem right_index (i : S8192x1858.Idx) (k : Fin 5120) : ridx_main_v1 i k = ix2 k (i 1) :=
  funext fun a => Fin.ext (by match a with | ⟨0, _⟩ => rfl | ⟨1, _⟩ => rfl)

/-- The reference's result is the product of the flattened input with the map. -/
theorem result_eq (x0 : (⟨S8192x80x8x8, .f32⟩ : BufTy).Contents (Elt Ideal)) (x1 : (⟨S5120x1858, .f32⟩ : BufTy).Contents (Elt Ideal)) :
    val_main_v1 (F := Ideal) x0 x1
      = Cert.RowsTimesColumns.product (shapeCast _ x0 Facts₀.shapeCasts_S8192x80x8x8_S8192x5120) x1 := by
  funext i
  rw [val_main_v1_apply, Cert.RowsTimesColumns.product_apply]
  refine Finset.sum_congr rfl fun k _ => ?_
  rw [left_index, right_index]
  rfl

end Cert.ReferenceIdeal.AsProduct

end
-- ==== Proof.RegionEntry.lean ====
/-
  What the one region finds in the two arrays it stages. Before the region the program flattens the board tensor
  to rows and narrows the map to bf16; at the exact values narrowing a format is the identity, so the region
  finds the flattened input and the map itself.
-/
import proofs.«425757_j1297080123727_3_alg».proof.Proof.Gen.KernelIdeal.Frame
import Idealize.ShloMosaic.Lib.StableHlo.Run
import Idealize.ShloMosaic.PureOps.Ideal

noncomputable section

namespace Cert.KernelIdeal.RegionEntry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The rows the region stages: the input flattened to [8192, 5120]. -/
theorem rows_entry (c : Dev nD) :
    (V m c main_v0 : S8192x5120.Idx → EReal)
      = shapeCast _ (m ((c : Thread nD τ).loc main_arg0)) Facts₀.shapeCasts_S8192x80x8x8_S8192x5120 := by
  dsimp only [Gen.V, Gen.hostOps0]; after_results; rfl

/-- The map the region stages: the second argument, its narrowing to bf16 being the identity on exact values. -/
theorem map_entry (c : Dev nD) :
    (V m c main_v1 : S5120x1858.Idx → EReal) = m ((c : Thread nD τ).loc main_arg1) := by
  dsimp only [Gen.V, Gen.hostOps0]; after_results; rfl

end Cert.KernelIdeal.RegionEntry

end
-- ==== Proof.BlockProduct.lean ====
/-
  What the body computes on one block. It loads a [256, 5120] block of rows and the whole [5120, 1858] map, narrows
  the rows to bf16 (at the exact values a change of format is the identity), and multiplies into a zero
  accumulator. So entry `(p, q)` of the stored [256, 1858] block is `∑ k, rows (p, k) · map (k, q)`: the zero
  accumulator adds nothing, and the contraction's one axis is re-indexed by its coordinate `k : Fin 5120`.
-/
import proofs.«425757_j1297080123727_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.ValueIdx

/-- The left operand's row is the output's row. -/
theorem lhs_axis_0 (i : S256x1858.Idx) (q : dot_S256x5120_S5120x1858_S256x1858_1_0_0_1_n_n.contr.Idx) :
    (dot_S256x5120_S5120x1858_S256x1858_1_0_0_1_n_n.lhsIdx i q 0).val = (i 0).val := by
  unfold DotDims.lhsIdx
  rw [dif_neg (show ¬(0 : Fin S256x5120.rank) ∈ dot_S256x5120_S5120x1858_S256x1858_1_0_0_1_n_n.lhsBatch by decide), dif_pos (show (0 : Fin S256x5120.rank) ∈ dot_S256x5120_S5120x1858_S256x1858_1_0_0_1_n_n.lhsNonContracting by decide)]
  rfl
/-- The left operand's column is the contracted coordinate. -/
theorem lhs_axis_1 (i : S256x1858.Idx) (q : dot_S256x5120_S5120x1858_S256x1858_1_0_0_1_n_n.contr.Idx) :
    (dot_S256x5120_S5120x1858_S256x1858_1_0_0_1_n_n.lhsIdx i q 1).val = (q ⟨0, by decide⟩).val :=
  dot_S256x5120_S5120x1858_S256x1858_1_0_0_1_n_n.lhsIdx_val_of_single rfl i q
/-- The right operand's row is the contracted coordinate. -/
theorem rhs_axis_0 (i : S256x1858.Idx) (q : dot_S256x5120_S5120x1858_S256x1858_1_0_0_1_n_n.contr.Idx) :
    (dot_S256x5120_S5120x1858_S256x1858_1_0_0_1_n_n.rhsIdx i q 0).val = (q ⟨0, by decide⟩).val :=
  dot_S256x5120_S5120x1858_S256x1858_1_0_0_1_n_n.rhsIdx_val_of_single rfl i q
/-- The right operand's column is the output's column. -/
theorem rhs_axis_1 (i : S256x1858.Idx) (q : dot_S256x5120_S5120x1858_S256x1858_1_0_0_1_n_n.contr.Idx) :
    (dot_S256x5120_S5120x1858_S256x1858_1_0_0_1_n_n.rhsIdx i q 1).val = (i 1).val := by
  unfold DotDims.rhsIdx
  rw [dif_neg (show ¬(1 : Fin S5120x1858.rank) ∈ dot_S256x5120_S5120x1858_S256x1858_1_0_0_1_n_n.rhsBatch by decide), dif_pos (show (1 : Fin S5120x1858.rank) ∈ dot_S256x5120_S5120x1858_S256x1858_1_0_0_1_n_n.rhsNonContracting by decide)]
  rfl

/-- Entry `(p, q)` of the block the body stores: the rows block times the map, summed over the 5120 positions. -/
theorem payload_apply (rows : Vec Ideal S256x5120 .f32) (map : Vec Ideal S5120x1858 .bf16) (p : Fin 256) (q : Fin 1858) :
    k0_pay1 (F := Ideal) rows map (ix2 p q) = ∑ k : Fin 5120, rows (ix2 p k) * map (ix2 k q) := by
  unfold k0_pay1
  simp only [matmul]
  rw [Ideal.matmul_constant_zero_apply, ← Equiv.sum_comp (contrEquiv1 dot_S256x5120_S5120x1858_S256x1858_1_0_0_1_n_n 5120 rfl rfl).symm]
  refine Finset.sum_congr rfl fun k _ => ?_
  have hk := contrEquiv1_symm_val dot_S256x5120_S5120x1858_S256x1858_1_0_0_1_n_n 5120 rfl rfl k
  have el : dot_S256x5120_S5120x1858_S256x1858_1_0_0_1_n_n.lhsIdx (ix2 p q) ((contrEquiv1 dot_S256x5120_S5120x1858_S256x1858_1_0_0_1_n_n 5120 rfl rfl).symm k) = ix2 p k := funext fun a => Fin.ext (by
    match a with
    | ⟨0, _⟩ => exact lhs_axis_0 _ _
    | ⟨1, _⟩ => exact (lhs_axis_1 _ _).trans hk)
  have er : dot_S256x5120_S5120x1858_S256x1858_1_0_0_1_n_n.rhsIdx (ix2 p q) ((contrEquiv1 dot_S256x5120_S5120x1858_S256x1858_1_0_0_1_n_n 5120 rfl rfl).symm k) = ix2 k q := funext fun a => Fin.ext (by
    match a with
    | ⟨0, _⟩ => exact (rhs_axis_0 _ _).trans hk
    | ⟨1, _⟩ => exact rhs_axis_1 _ _)
  rw [el, er, truncf_apply, shapeCast_self, shapeCast_self]

end Cert.KernelIdeal.BlockProduct

end
-- ==== Proof.KernelArray.lean ====
/-
  From blocks to the array. Grid point `t` of the 32 stages rows `256·t … 256·t + 255` of the flattened input and the
  whole map, and writes back rows `256·t … 256·t + 255` of the result. What it writes is the block product of
  BlockProduct, which at row `p` of the block is row `256·t + p` of the whole product; the 32 row blocks tile
  the 8192 rows (row `r` lies in block `r / 256`), so after the run the result array is the whole product.
-/
import proofs.«425757_j1297080123727_3_alg».proof.Proof.Gen.KernelIdeal.Value
import proofs.«425757_j1297080123727_3_alg».proof.Proof.RowsTimesColumns
import proofs.«425757_j1297080123727_3_alg».proof.Proof.BlockProduct

noncomputable section

namespace Cert.KernelIdeal.KernelArray

open Cert.KernelIdeal Cert.KernelIdeal.Gen Idealize.ShloMosaic Idealize.ShloMosaic.TcCoe Idealize.SL.Sem
open Idealize.ShloMosaic.Pipeline (Dat)
open Idealize.ShloMosaic.ValueIdx
open Cert.RowsTimesColumns (product product_apply)

variable (m : (ℓ : Loc nD τ sig) → Buf (Elt Ideal) ℓ) (ρ : Dev nD → PrngReg)

/-- The flattened rows as the region finds them. -/
abbrev rowsArr (c : Dev nD) : Vec Ideal S8192x5120 .f32 := V m c main_v0
/-- The map as the region finds it. -/
abbrev mapArr (c : Dev nD) : Vec Ideal S5120x1858 .bf16 := V m c main_v1

theorem zero_offsets : (![0, 0] : Fin 2 → Nat) = fun _ => 0 := funext fun a => by fin_cases a <;> rfl

/-- Over the 32 points: the rows window moves with the result window along the rows and sits at column block 0; the
    map window never moves; the result window's row block is below 32 and its column block is 0. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 31
    ∧ win0_2.index t (1 : Fin 2) = 0 :=
  (by decide +kernel : ∀ t : Fin grid0.N, _)

/-- Every one of the 32 row blocks is some point's. -/
theorem row_block_onto : ∀ b : Fin 32, ∃ t : Fin cfg0.N, win0_2.index t = ![b.val, 0] :=
  (by decide +kernel : ∀ b : Fin 32, ∃ t : Fin grid0.N, win0_2.index t = ![b.val, 0])

/-- What point `t` writes back is block `t` of the product of the staged arrays. -/
theorem flushed_eq (c : Dev nD) (t : Fin cfg0.N) :
    (dats m 0 c).flushed 2 t = ((cfg0.win 2).blk t).view.read (Elt Ideal) (product (rowsArr m c) (mapArr m c)) := by
  rw [Cert.KernelIdeal.Value.flushed2]
  unfold out0_2
  rw [View.canon_unit_zero zero_offsets]
  simp only [View.ld_unit_zero (S := S256x5120) zero_offsets, View.ld_unit_zero (S := S5120x1858) zero_offsets]
  obtain ⟨e0, e1, e2, e3, e4, e5⟩ := block_indices t
  funext j
  obtain ⟨p, q, rfl⟩ : ∃ (p : Fin 256) (q : Fin 1858), j = ix2 p q := ⟨j 0, j 1, eq_ix2 j⟩
  show k0_pay1 (F := Ideal) (iblk m c 0 t) (iblk m c 1 t) (ix2 p q)
    = product (rowsArr m c) (mapArr m c) (((cfg0.win 2).blk t).view.emb (ix2 p q))
  refine (Cert.KernelIdeal.BlockProduct.payload_apply (iblk m c 0 t) (iblk m c 1 t) p q).trans ?_
  rw [product_apply]
  refine Finset.sum_congr rfl fun k _ => ?_
  show rowsArr m c (((cfg0.win 0).blk t).view.emb (ix2 p k)) * mapArr m c (((cfg0.win 1).blk t).view.emb (ix2 k q))
    = rowsArr m c (ix2 ((((cfg0.win 2).blk t).view.emb (ix2 p q)) 0) k) * mapArr m c (ix2 k ((((cfg0.win 2).blk t).view.emb (ix2 p q)) 1))
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 256 + 1 * p.val = win0_2.index t (0 : Fin 2) * 256 + 1 * p.val; omega
    | ⟨1, _⟩ => show win0_0.index t (1 : Fin 2) * 5120 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 5120 + 1 * k.val = k.val; omega
    | ⟨1, _⟩ => show win0_1.index t (1 : Fin 2) * 1858 + 1 * q.val = win0_2.index t (1 : Fin 2) * 1858 + 1 * q.val; omega
  rw [h0, h1]
  rfl

/-- An index of the result is in point `t`'s block iff each coordinate is in the block's range on its axis. -/
theorem mem_block (t : Fin cfg0.N) (i : S8192x1858.Idx) :
    i ∈ ((cfg0.win 2).blk t).view.set ↔ ∀ a : Fin 2, win0_2.index t a * S256x1858.size a ≤ (i a).val ∧ (i a).val < win0_2.index t a * S256x1858.size a + S256x1858.size a := by
  show i ∈ ((View.whole main_v2).slice (win0_2.rect t)).set ↔ _
  rw [View.set_slice_whole, Rect.mem_set_unit]
  exact Iff.rfl

/-- Every index of the result lies in the block of the point whose row block is its row divided by 256. -/
theorem covered (i : S8192x1858.Idx) :
    ∃ t : Fin cfg0.N, (cfg0.win 2).flush t = true ∧ i ∈ ((cfg0.win 2).blk t).view.set := by
  have hi0 : (i 0).val < 8192 := (i 0).isLt
  have hi1 : (i 1).val < 1858 := (i 1).isLt
  obtain ⟨t, ht⟩ := row_block_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1858 ≤ (i 1).val ∧ (i 1).val < win0_2.index t (1 : Fin 2) * 1858 + 1858; omega

/-- The result array after the run is the product of the staged arrays. -/
theorem final (c : Dev nD) : (dats m 0 c).arrAt 2 cfg0.N = product (rowsArr m c) (mapArr m c) :=
  (dats m 0 c).arrAt_eq_of_cover 2 (product (rowsArr m c) (mapArr m c)) (fun t _ => flushed_eq m c t) (covered)

/-- The run, read: the result at the product of the staged arrays, the arguments unchanged. -/
theorem run : θ_run defs (onTc (τ := τ) (main (F := Ideal))) ⟨m, fun _ => 0, ρ⟩ fun r => ∀ c : Dev nD,
      r.2.mem ((c : Thread nD τ).loc main_v2) = product (rowsArr m c) (mapArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.KernelArray

end
-- ==== Proof.lean ====
/-
  The policy map: a board tensor [8192, 80, 8, 8] is flattened to rows [8192, 5120] and multiplied by a [5120, 1858]
  map. The kernel does this 256 rows at a time, narrowing both operands to bf16 and accumulating in f32 from
  zero; the reference is one matrix product of the flattened rows with the map. On the extended reals a change of
  float format is the identity and a zero accumulator adds nothing, so both compute, at row `b` and column `n`,
  the single sum `∑ k, x (b, k) · w (k, n)` over the 5120 flattened positions (RowsTimesColumns). The reference is
  read as that sum in ReferenceProduct; one block of the kernel in BlockProduct; the 32 row blocks tile the 8192
  rows, which gives the whole result array in KernelArray; RegionEntry says what the flattening and the narrowing
  leave in the staged arrays. No law of the extended reals beyond `0 + s = s` is used, so finiteness of the
  inputs is never opened. The idealized kernel is the kernel's own text read at the exact values, so the
  idealization claim has no conjunct to prove.
-/
import proofs.«425757_j1297080123727_3_alg».proof.Defs
import proofs.«425757_j1297080123727_3_alg».proof.Proof.Gen.Kernel
import proofs.«425757_j1297080123727_3_alg».proof.Proof.Gen.Kernel.Skeleton
import proofs.«425757_j1297080123727_3_alg».proof.Proof.Gen.Kernel.Launch
import proofs.«425757_j1297080123727_3_alg».proof.Proof.Gen.Kernel.Points
import proofs.«425757_j1297080123727_3_alg».proof.Proof.Gen.Kernel.Frame
import proofs.«425757_j1297080123727_3_alg».proof.Proof.Gen.KernelIdeal
import proofs.«425757_j1297080123727_3_alg».proof.Proof.Gen.KernelIdeal.Skeleton
import proofs.«425757_j1297080123727_3_alg».proof.Proof.Gen.KernelIdeal.Launch
import proofs.«425757_j1297080123727_3_alg».proof.Proof.Gen.KernelIdeal.Points
import proofs.«425757_j1297080123727_3_alg».proof.Proof.Gen.KernelIdeal.Frame
import proofs.«425757_j1297080123727_3_alg».proof.Proof.Gen.ReferenceIdeal
import proofs.«425757_j1297080123727_3_alg».proof.Proof.Gen.Pre_finite_inputs
import proofs.«425757_j1297080123727_3_alg».proof.Proof.Gen.KernelIdeal.Value
import proofs.«425757_j1297080123727_3_alg».proof.Proof.Gen.ReferenceIdeal.Run
import proofs.«425757_j1297080123727_3_alg».proof.Proof.Gen.ReferenceIdeal.Read
import proofs.«425757_j1297080123727_3_alg».proof.Proof.RowsTimesColumns
import proofs.«425757_j1297080123727_3_alg».proof.Proof.ReferenceProduct
import proofs.«425757_j1297080123727_3_alg».proof.Proof.RegionEntry
import proofs.«425757_j1297080123727_3_alg».proof.Proof.KernelArray
import Idealize.ShloMosaic.Adequacy
import Idealize.ShloMosaic.Init

noncomputable section

namespace Cert.Proof

open Idealize.ShloMosaic Idealize.ShloMosaic.TcCoe Idealize.SL.Sem
open Cert.RowsTimesColumns (product)

theorem frame_kernel : Cert.frame_Kernel :=
  fun m ρ _ => Cert.Kernel.Gen.frame m ρ

theorem frame_kernel_ideal : Cert.frame_KernelIdeal :=
  fun m ρ _ => Cert.KernelIdeal.Gen.frame m ρ

/-- The reference has no kernel: its frame is its run with the result dropped. -/
theorem frame_reference_ideal : Cert.frame_ReferenceIdeal :=
  fun m ρ _ => (θ_run Cert.ReferenceIdeal.defs _ _).mono (fun _ h c => (h c).2)
    (Cert.ReferenceIdeal.Value.run (F := Ideal) m ρ)

/-- Both programs end with the product of the flattened first argument with the second: the kernel's staged arrays
    are those two (RegionEntry), and the reference's one product is that sum (ReferenceProduct). -/
theorem algebraic : Cert.algebraic_KernelIdeal_ReferenceIdeal := by
  intro m ρ m' ρ' _ hagree
  refine ⟨fun c => product
      (shapeCast _ (m ((c : Thread Cert.KernelIdeal.nD Cert.KernelIdeal.τ).loc Cert.KernelIdeal.main_arg0))
        Cert.KernelIdeal.Facts₀.shapeCasts_S8192x80x8x8_S8192x5120)
      (m ((c : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.KernelArray.run m ρ)
    exact congrArg₂ product (Cert.KernelIdeal.RegionEntry.rows_entry m c) (Cert.KernelIdeal.RegionEntry.map_entry m c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v1_eq, Cert.ReferenceIdeal.AsProduct.result_eq,
      (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
